-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x8192x2048 : Shape := ⟨3, ![8, 8192, 2048]⟩
abbrev S8x8192 : Shape := ⟨2, ![8, 8192]⟩
abbrev S8x2048x8192 : Shape := ⟨3, ![8, 2048, 8192]⟩
abbrev S8x2048 : Shape := ⟨2, ![8, 2048]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v16 : IVec S8x2048x8192 1) : IVec S_ 1 :=
  let main_c_5 : IVec S_ 1 := constantI S_ 1 1#1
  let main_v17 : IVec S_ 1 := (fun x v => Host.reduce IntOp.andi x v reducesTo_S8x2048x8192_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S16384x2048 .f32) (main_arg1 : FVec F S8x8192x2048 .f32) (main_arg2 : FVec F S8x8192 .f32) (main_arg3 : FVec F S8x2048x8192 .f32) (main_arg4 : FVec F S8x2048 .f32) (main_arg5 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x2048x8192 .f32 := Host.absf main_arg3
  let main_cst_4 : FVec F S_ .f32 := constant S_ .f32 0x7F800000#32
  let main_v15 : FVec F S8x2048x8192 .f32 := broadcastInDim S8x2048x8192 ![] bcast_S_S8x2048x8192 main_cst_4
  let main_v16 : IVec S8x2048x8192 1 := cmpf .olt main_v14 main_v15
  fn_part1 (F := F) main_arg4 main_v13 main_v16
-- ==== Kernel.lean ====
abbrev S16384x2048 : Shape := ⟨2, ![16384, 2048]⟩
abbrev S8x8192x2048 : Shape := ⟨3, ![8, 8192, 2048]⟩
abbrev S8x8192 : Shape := ⟨2, ![8, 8192]⟩
abbrev S8x2048x8192 : Shape := ⟨3, ![8, 2048, 8192]⟩
abbrev S8x2048 : Shape := ⟨2, ![8, 2048]⟩
abbrev S8 : Shape := ⟨1, ![8]⟩
abbrev S8x2048x2048 : Shape := ⟨3, ![8, 2048, 2048]⟩
abbrev S8x1x8192 : Shape := ⟨3, ![8, 1, 8192]⟩
abbrev S8x1x2048 : Shape := ⟨3, ![8, 1, 2048]⟩
abbrev S1x512x2048 : Shape := ⟨3, ![1, 512, 2048]⟩
abbrev S1x1x512 : Shape := ⟨3, ![1, 1, 512]⟩
abbrev S1x2048x512 : Shape := ⟨3, ![1, 2048, 512]⟩
abbrev S1x1x2048 : Shape := ⟨3, ![1, 1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S2048 : Shape := ⟨1, ![2048]⟩
abbrev S1x2048 : Shape := ⟨2, ![1, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x8192, .f32⟩
  | .hbm, ⟨3, _⟩ => ⟨S8x2048x8192, .f32⟩
  | .hbm, ⟨4, _⟩ => ⟨S8x2048, .f32⟩
  | .hbm, ⟨5, _⟩ => ⟨S8, .i32⟩
  | .hbm, ⟨6, _⟩ => ⟨S8x2048x2048, .f32⟩
  | .hbm, ⟨7, _⟩ => ⟨S8x1x8192, .f32⟩
  | .hbm, ⟨8, _⟩ => ⟨S8x1x2048, .f32⟩
  | .hbm, ⟨9, _⟩ => ⟨S8x2048x2048, .f32⟩
  | .hbm, ⟨10, _⟩ => ⟨S16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v40 : BitVec 1 := Scalar.cmpi .eq arg2 c15_i32
  let v41 : BitVec 32 := Scalar.extui v40
  let c0_i32_21 : BitVec 32 := 0#32
  let v42 : BitVec 1 := Scalar.cmpi .ne v41 c0_i32_21
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S16384x2048_S8x2048x2048 : S16384x2048.ShapeCasts S8x2048x2048
  shapeCasts_S8x8192_S8x1x8192 : S8x8192.ShapeCasts S8x1x8192
  shapeCasts_S8x2048_S8x1x2048 : S8x2048.ShapeCasts S8x1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  transposes_S512x2048_p1_0_S2048x512 : S512x2048.Transposes [1, 0] S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S512x512 : S1x512.Broadcasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  transposes_S2048x512_p1_0_S512x2048 : S2048x512.Transposes [1, 0] S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S512x2048 : S1x2048.Broadcasts S512x2048
  shapeCasts_S512x2048_S1x512x2048 : S512x2048.ShapeCasts S1x512x2048
  shapeCasts_S8x2048x2048_S16384x2048 : S8x2048x2048.ShapeCasts S16384x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x8192x2048.size a
  hwx0_1 : ∀ i : grid0.Coords, EltTy.bits .f32 = 32 ∨ (Rect.block (s := S8x8192x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x8192.size a
  hwx0_2 : ∀ i : grid0.Coords, EltTy.bits .f32 = 32 ∨ (Rect.block (s := S8x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x8192.size a
  hwx0_3 : ∀ i : grid0.Coords, EltTy.bits .f32 = 32 ∨ (Rect.block (s := S8x2048x8192) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x8192x2048 : Shape := ⟨3, ![8, 8192, 2048]⟩
abbrev S8x8192 : Shape := ⟨2, ![8, 8192]⟩
abbrev S8x2048x8192 : Shape := ⟨3, ![8, 2048, 8192]⟩
abbrev S8x2048 : Shape := ⟨2, ![8, 2048]⟩
abbrev S8 : Shape := ⟨1, ![8]⟩
abbrev S8x2048x2048 : Shape := ⟨3, ![8, 2048, 2048]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x8192, .f32⟩
  | .hbm, ⟨3, _⟩ => ⟨S8x2048x8192, .f32⟩
  | .hbm, ⟨4, _⟩ => ⟨S8x2048, .f32⟩
  | .hbm, ⟨5, _⟩ => ⟨S8, .i32⟩
  | .hbm, ⟨6, _⟩ => ⟨S8x2048x2048, .f32⟩
  | .hbm, ⟨7, _⟩ => ⟨S8x2048x8192, .f32⟩
  | .hbm, ⟨8, _⟩ => ⟨S8x1x8192, .f32⟩
  | .hbm, ⟨9, _⟩ => ⟨S8x2048x8192, .f32⟩
  | .hbm, ⟨10, _⟩ => ⟨S8x2048x8192, .f32⟩
  | .hbm, ⟨11, _⟩ => ⟨S8x2048x8192, .f32⟩
  | .hbm, ⟨12, _⟩ => ⟨S8x2048x8192, .f32⟩
  | .hbm, ⟨13, _⟩ => ⟨S_, .f32⟩
  | .hbm, ⟨14, _⟩ => ⟨S8x2048x8192, .f32⟩
  | .hbm, ⟨15, _⟩ => ⟨S8x2048x8192, .f32⟩
  | .hbm, ⟨16, _⟩ => ⟨S8x2048x8192, .f32⟩
  | .hbm, ⟨17, _⟩ => ⟨S_, .f32⟩
  | .hbm, ⟨18, _⟩ => ⟨S8x2048x8192, .f32⟩
  | .hbm, ⟨19, _⟩ => ⟨S8x2048x8192, .f32⟩
  | .hbm, ⟨20, _⟩ => ⟨S8x2048x8192, .f32⟩
  | .hbm, ⟨21, _⟩ => ⟨S_, .f32⟩
  | .hbm, ⟨22, _⟩ => ⟨S8x2048x8192, .f32⟩
  | .hbm, ⟨23, _⟩ => ⟨S8x2048x8192, .f32⟩
  | .hbm, ⟨24, _⟩ => ⟨S_, .f32⟩
  | .hbm, ⟨25, _⟩ => ⟨S8x2048x8192, .f32⟩
  | .hbm, ⟨26, _⟩ => ⟨S8x2048x8192, .f32⟩
  | .hbm, ⟨27, _⟩ => ⟨S8x2048x8192, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S8x8192_S8x1x8192_0_2 : S8x8192.BroadcastsInDim S8x1x8192 (![0, 2] : Fin 2 → Fin S8x1x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  shapeCasts_S8x2048x2048_S16384x2048 : S8x2048x2048.ShapeCasts S16384x2048
  dot_S8x2048x2048_S8x8192x2048_S8x2048x8192_2_2_1_1_0_0_wf : DotDims.WF S8x2048x2048 S8x8192x2048 S8x2048x8192 [2] [2] [1] [1] [0] [0]
  dot_S8x2048x8192_S8x2048x8192_S8x2048x2048_2_2_1_1_0_0_wf : DotDims.WF S8x2048x8192 S8x2048x8192 S8x2048x2048 [2] [2] [1] [1] [0] [0]

variable [Facts₀]

def dot_S8x2048x2048_S8x8192x2048_S8x2048x8192_2_2_1_1_0_0 : DotDims S8x2048x2048 S8x8192x2048 S8x2048x8192 where
  lhsContracting := [2]
  rhsContracting := [2]
  lhsNonContracting := [1]
  rhsNonContracting := [1]
  lhsBatch := [0]
  rhsBatch := [0]
  wf := dot_S8x2048x2048_S8x8192x2048_S8x2048x8192_2_2_1_1_0_0_wf
def dot_S8x2048x8192_S8x2048x8192_S8x2048x2048_2_2_1_1_0_0 : DotDims S8x2048x8192 S8x2048x8192 S8x2048x2048 where
  lhsContracting := [2]
  rhsContracting := [2]
  lhsNonContracting := [1]
  rhsNonContracting := [1]
  lhsBatch := [0]
  rhsBatch := [0]
  wf := dot_S8x2048x8192_S8x2048x8192_S8x2048x2048_2_2_1_1_0_0_wf

class Facts : Prop extends Facts₀ where

variable [Facts]
-- ==== Proof.Pieces.lean ====
/-
  What one grid step leaves behind, as values.

  The running total lives in a scratch block that the kernel keeps from step to step. A step that starts a token tile
  (hidden block 0) first stores zero there and reads it back, so it leaves zero plus its own product; every other step
  leaves what it found plus its own product. The step that ends a token tile (hidden block 15) also stores the tile it
  hands out: the total it has just written, read back, plus the second bias. Each of these is one store that covers its
  whole block, so what the block holds afterwards is that store's value, with every load reading a whole block.
-/
import proofs.«103591_j30734785970328_1_alg».proof.Proof.Gen.KernelIdeal.Frame
import Idealize.ShloMosaic.Lib.Pipeline.Value
import Idealize.ShloMosaic.Lib.Tactic

noncomputable section

namespace Cert.KernelIdeal.FfnPieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that starts a token tile leaves zero plus its product in the scratch. -/
theorem scratch_first (c : Dev nD) (i : grid0.Coords) (a3 : Memref sig .tc .vmem S1x512x2048 .f32) (h3 : a3.IsWhole) (a4 : Memref sig .tc .vmem S1x512x2048 .f32) (h4 : a4.IsWhole) (a5 : Memref sig .tc .vmem S1x1x512 .f32) (h5 : a5.IsWhole) (a6 : Memref sig .tc .vmem S1x2048x512 .f32) (h6 : a6.IsWhole) (a7 : Memref sig .tc .vmem S1x1x2048 .f32) (h7 : a7.IsWhole) (a8 : Memref sig .tc .vmem S1x512x2048 .f32) (h8 : a8.IsWhole) (a9 : Memref sig .tc .vmem S512x2048 .f32) (h9 : a9.IsWhole) (hc0 : cond0_0 i) (hc1 : ¬cond0_1 i) (x0 : Vec F S1x512x2048 .f32) (x1 : Vec F S1x512x2048 .f32) (x2 : Vec F S1x1x512 .f32) (x3 : Vec F S1x2048x512 .f32) (x4 : Vec F S1x1x2048 .f32) :
    sout0_A_0 c i a3 h3 a4 h4 a5 h5 a6 h6 a7 h7 a8 h8 a9 h9 hc0 hc1 x0 x1 x2 x3 x4 = k0_pay1 (k0_pay4 x0 x1 x2) (k0_pay3 (F := F)) (k0_pay5 x3) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S512x2048) hz2]
  simp only [View.readAt_eq_ld, h3.read_unread, h4.read_unread, h5.read_unread, h6.read_unread, h7.read_unread, h9.read_unread, View.readCov_unit_zero (S := S512x2048) _ hz2, View.ld_unit_zero (S := S1x512x2048) hz3, View.ld_unit_zero (S := S1x1x512) hz3, View.ld_unit_zero (S := S1x2048x512) hz3, View.ld_unit_zero (S := S1x1x2048) hz3, View.ld_unit_zero (S := S512x2048) hz2]

/-- A step in the middle of a token tile leaves what it found plus its product. -/
theorem scratch_middle (c : Dev nD) (i : grid0.Coords) (a3 : Memref sig .tc .vmem S1x512x2048 .f32) (h3 : a3.IsWhole) (a4 : Memref sig .tc .vmem S1x512x2048 .f32) (h4 : a4.IsWhole) (a5 : Memref sig .tc .vmem S1x1x512 .f32) (h5 : a5.IsWhole) (a6 : Memref sig .tc .vmem S1x2048x512 .f32) (h6 : a6.IsWhole) (a7 : Memref sig .tc .vmem S1x1x2048 .f32) (h7 : a7.IsWhole) (a8 : Memref sig .tc .vmem S1x512x2048 .f32) (h8 : a8.IsWhole) (a9 : Memref sig .tc .vmem S512x2048 .f32) (h9 : a9.IsWhole) (hc0 : ¬cond0_0 i) (hc1 : ¬cond0_1 i) (x0 : Vec F S1x512x2048 .f32) (x1 : Vec F S1x512x2048 .f32) (x2 : Vec F S1x1x512 .f32) (x3 : Vec F S1x2048x512 .f32) (x4 : Vec F S1x1x2048 .f32) (xs0 : Vec F S512x2048 .f32) :
    sout0_B_0 c i a3 h3 a4 h4 a5 h5 a6 h6 a7 h7 a8 h8 a9 h9 hc0 hc1 x0 x1 x2 x3 x4 xs0 = k0_pay1 (k0_pay4 x0 x1 x2) xs0 (k0_pay5 x3) := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz2]
  simp only [View.readAt_eq_ld, h3.read_unread, h4.read_unread, h5.read_unread, h6.read_unread, h7.read_unread, h9.read_unread, View.readCov_unit_zero (S := S512x2048) _ hz2, View.ld_unit_zero (S := S1x512x2048) hz3, View.ld_unit_zero (S := S1x1x512) hz3, View.ld_unit_zero (S := S1x2048x512) hz3, View.ld_unit_zero (S := S1x1x2048) hz3, View.ld_unit_zero (S := S512x2048) hz2]

/-- So does the step that ends a token tile; -/
theorem scratch_last (c : Dev nD) (i : grid0.Coords) (a3 : Memref sig .tc .vmem S1x512x2048 .f32) (h3 : a3.IsWhole) (a4 : Memref sig .tc .vmem S1x512x2048 .f32) (h4 : a4.IsWhole) (a5 : Memref sig .tc .vmem S1x1x512 .f32) (h5 : a5.IsWhole) (a6 : Memref sig .tc .vmem S1x2048x512 .f32) (h6 : a6.IsWhole) (a7 : Memref sig .tc .vmem S1x1x2048 .f32) (h7 : a7.IsWhole) (a8 : Memref sig .tc .vmem S1x512x2048 .f32) (h8 : a8.IsWhole) (a9 : Memref sig .tc .vmem S512x2048 .f32) (h9 : a9.IsWhole) (hc0 : ¬cond0_0 i) (hc1 : cond0_1 i) (x0 : Vec F S1x512x2048 .f32) (x1 : Vec F S1x512x2048 .f32) (x2 : Vec F S1x1x512 .f32) (x3 : Vec F S1x2048x512 .f32) (x4 : Vec F S1x1x2048 .f32) (xs0 : Vec F S512x2048 .f32) :
    sout0_C_0 c i a3 h3 a4 h4 a5 h5 a6 h6 a7 h7 a8 h8 a9 h9 hc0 hc1 x0 x1 x2 x3 x4 xs0 = k0_pay1 (k0_pay4 x0 x1 x2) xs0 (k0_pay5 x3) := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz2]
  simp only [View.readAt_eq_ld, h3.read_unread, h4.read_unread, h5.read_unread, h6.read_unread, h7.read_unread, h9.read_unread, View.readCov_unit_zero (S := S512x2048) _ hz2, View.ld_unit_zero (S := S1x512x2048) hz3, View.ld_unit_zero (S := S1x1x512) hz3, View.ld_unit_zero (S := S1x2048x512) hz3, View.ld_unit_zero (S := S1x1x2048) hz3, View.ld_unit_zero (S := S512x2048) hz2]

/-- and the tile it hands out is that total plus the second bias. -/
theorem handed_last (c : Dev nD) (i : grid0.Coords) (a3 : Memref sig .tc .vmem S1x512x2048 .f32) (h3 : a3.IsWhole) (a4 : Memref sig .tc .vmem S1x512x2048 .f32) (h4 : a4.IsWhole) (a5 : Memref sig .tc .vmem S1x1x512 .f32) (h5 : a5.IsWhole) (a6 : Memref sig .tc .vmem S1x2048x512 .f32) (h6 : a6.IsWhole) (a7 : Memref sig .tc .vmem S1x1x2048 .f32) (h7 : a7.IsWhole) (a8 : Memref sig .tc .vmem S1x512x2048 .f32) (h8 : a8.IsWhole) (a9 : Memref sig .tc .vmem S512x2048 .f32) (h9 : a9.IsWhole) (hc0 : ¬cond0_0 i) (hc1 : cond0_1 i) (x0 : Vec F S1x512x2048 .f32) (x1 : Vec F S1x512x2048 .f32) (x2 : Vec F S1x1x512 .f32) (x3 : Vec F S1x2048x512 .f32) (x4 : Vec F S1x1x2048 .f32) (xs0 : Vec F S512x2048 .f32) :
    out0_C_5 c i a3 h3 a4 h4 a5 h5 a6 h6 a7 h7 a8 h8 a9 h9 hc0 hc1 x0 x1 x2 x3 x4 xs0 = k0_pay2 (k0_pay1 (k0_pay4 x0 x1 x2) xs0 (k0_pay5 x3)) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz3]
  simp only [View.readAt_eq_ld, h3.read_unread, h4.read_unread, h5.read_unread, h6.read_unread, h7.read_unread, h9.read_unread, View.readCov_unit_zero (S := S512x2048) _ hz2, View.ld_unit_zero (S := S1x512x2048) hz3, View.ld_unit_zero (S := S1x1x512) hz3, View.ld_unit_zero (S := S1x2048x512) hz3, View.ld_unit_zero (S := S1x1x2048) hz3, View.ld_unit_zero (S := S512x2048) hz2]

end Cert.KernelIdeal.FfnPieces

end
-- ==== Proof.Spec.lean ====
/-
  The mathematics of the grouped expert feed-forward layer, stated once over the extended reals, with no program in sight.

  For expert e, token t of that expert and hidden unit h:
      pre e t h  =  (sum over d of X (e * 2048 + t, d) * W1 (e, h, d))  +  B1 (e, h)
      act e t h  =  gelu (pre e t h)                (the tanh form of GELU)
  and for output feature d:
      out e t d  =  (sum over h of act e t h * W2 (e, d, h))  +  B2 (e, d).
  The result array has the experts' tokens laid end to end: row r holds out (r / 2048) (r % 2048) _.

  The hidden axis has 8192 units. A sum over it may be taken sixteen blocks of 512 at a time: on the extended reals
  addition is commutative and associative (infinities included), so the sum of the sixteen block sums is the whole sum,
  and a running total started from zero and fed the block sums one by one ends at it. No finiteness is needed anywhere.
-/
import Idealize.ShloMosaic.PureOps.Ideal
import Idealize.ShloMosaic.PureOps.Ideal.Laws
import Idealize.ShloMosaic.Lib.ValueIdx
import Mathlib.Algebra.BigOperators.Fin

noncomputable section

namespace Cert.Ffn

open Idealize.ShloMosaic Idealize.ShloMosaic.ValueIdx

/-- The tanh form of GELU, with the cube grouped as v * (v * v):
    v * (1/2 * (1 + tanh (s * (v + c * (v * (v * v)))))), the four constants being the f32 words the programs carry. -/
def gelu (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * (v * v))))))

/-- Grouping the cube the other way, (v * v) * v, is the same number: multiplication commutes. -/
theorem gelu_cube_left (v : EReal) :
    v * (Ideal.ofBits .f32 0x3F000000#32 * (Ideal.ofBits .f32 0x3F800000#32
      + Ideal.tanh (Ideal.ofBits .f32 0x3F4C422A#32 * (v + Ideal.ofBits .f32 0x3D372713#32 * (v * v * v))))) = gelu v := by
  unfold gelu
  rw [mul_comm (v * v) v]

/-- Row of token t of expert e in the flat token array. -/
abbrev tokRow (e : Fin 8) (t : Fin 2048) : Fin 16384 :=
  ⟨e.val * 2048 + t.val, by have := e.isLt; have := t.isLt; omega⟩

/-- Hidden unit j of hidden block k. -/
abbrev hidAt (k : Fin 16) (j : Fin 512) : Fin 8192 :=
  ⟨k.val * 512 + j.val, by have := k.isLt; have := j.isLt; omega⟩

/-- Token r of token tile mt, within one expert. -/
abbrev tileRow (mt : Fin 4) (r : Fin 512) : Fin 2048 :=
  ⟨mt.val * 512 + r.val, by have := mt.isLt; have := r.isLt; omega⟩

section
variable (X : (⟨2, ![16384, 2048]⟩ : Shape).Idx → EReal) (W1 : (⟨3, ![8, 8192, 2048]⟩ : Shape).Idx → EReal)
  (B1 : (⟨2, ![8, 8192]⟩ : Shape).Idx → EReal) (W2 : (⟨3, ![8, 2048, 8192]⟩ : Shape).Idx → EReal)
  (B2 : (⟨2, ![8, 2048]⟩ : Shape).Idx → EReal)

/-- The hidden pre-activation. -/
def pre (e : Fin 8) (t : Fin 2048) (h : Fin 8192) : EReal :=
  (∑ d : Fin 2048, X (ix2 (tokRow e t) d) * W1 (ix3 e h d)) + B1 (ix2 e h)

/-- The hidden activation. -/
def act (e : Fin 8) (t : Fin 2048) (h : Fin 8192) : EReal := gelu (pre X W1 B1 e t h)

/-- One output entry. -/
def out (e : Fin 8) (t : Fin 2048) (d : Fin 2048) : EReal :=
  (∑ h : Fin 8192, act X W1 B1 e t h * W2 (ix3 e d h)) + B2 (ix2 e d)

/-- The result array: row r is token r % 2048 of expert r / 2048. -/
def result : (⟨2, ![16384, 2048]⟩ : Shape).Idx → EReal := fun i =>
  out X W1 B1 W2 B2 ⟨(i 0).val / 2048, by have : (i 0).val < 16384 := (i 0).isLt; omega⟩
    ⟨(i 0).val % 2048, Nat.mod_lt _ (by decide)⟩ (i 1)

/-- What hidden block k contributes to out e t d (zero for k past the sixteen blocks). -/
def blockTerm (e : Fin 8) (t : Fin 2048) (d : Fin 2048) (k : ℕ) : EReal :=
  if hk : k < 16 then ∑ j : Fin 512, act X W1 B1 e t (hidAt ⟨k, hk⟩ j) * W2 (ix3 e d (hidAt ⟨k, hk⟩ j)) else 0

end

/-- A sum over the 8192 hidden units, taken sixteen blocks of 512 at a time. -/
theorem sum_hidden_blocks (f : Fin 8192 → EReal) :
    ∑ h : Fin 8192, f h = ∑ k : Fin 16, ∑ j : Fin 512, f (hidAt k j) := by
  rw [← Fintype.sum_prod_type' (f := fun k j => f (hidAt k j))]
  rw [← Equiv.sum_comp (finProdFinEquiv (m := 16) (n := 512)) f]
  refine Finset.sum_congr rfl fun x _ => congrArg f (Fin.ext ?_)
  show x.2.val + 512 * x.1.val = x.1.val * 512 + x.2.val
  omega

/-- The sixteen block terms add up to the whole hidden sum. -/
theorem sum_blockTerm (X : (⟨2, ![16384, 2048]⟩ : Shape).Idx → EReal) (W1 : (⟨3, ![8, 8192, 2048]⟩ : Shape).Idx → EReal)
    (B1 : (⟨2, ![8, 8192]⟩ : Shape).Idx → EReal) (W2 : (⟨3, ![8, 2048, 8192]⟩ : Shape).Idx → EReal)
    (e : Fin 8) (t : Fin 2048) (d : Fin 2048) :
    ∑ k ∈ Finset.range 16, blockTerm X W1 B1 W2 e t d k = ∑ h : Fin 8192, act X W1 B1 e t h * W2 (ix3 e d h) := by
  rw [sum_hidden_blocks, Finset.sum_range]
  refine Finset.sum_congr rfl fun k _ => ?_
  unfold blockTerm
  rw [dif_pos k.isLt]

end Cert.Ffn

end
-- ==== Proof.Payloads.lean ====
/-
  The arithmetic of one grid step, read entry by entry over the extended reals.

  A step holds a 512-token tile of one expert (x0), a 512-unit block of that expert's first weight matrix (x1) with its
  bias (x2), and the matching 512-column block of the second weight matrix (x3). It forms the tile's hidden activations
  for that block, and adds their product with the second block to the running total. The step that ends a token tile adds
  the second bias and hands the tile out. Changes of float format are the identity here and a matrix product into a zero
  accumulator is the plain sum of products, so each value is a short closed expression in the loaded entries.
-/
import proofs.«103591_j30734785970328_1_alg».proof.Proof.Gen.KernelIdeal.Skeleton
import proofs.«103591_j30734785970328_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.FfnPayload

open Idealize.ShloMosaic Idealize.ShloMosaic.ValueIdx Cert.KernelIdeal Cert.KernelIdeal.Gen

/-- The block the running total is reset to is zero everywhere. -/
theorem reset_apply (y : S512x2048.Idx) : k0_pay3 (F := Ideal) y = 0 := by
  unfold k0_pay3
  rw [shapeCast_self]
  exact Ideal.ofBits_zero_f32

/-! ### The first product: token tile [512, 2048] times the turned first weight block [2048, 512]

The same dimension numbers: the left operand is read at (row of the result, contraction position) and the right at
(contraction position, column). -/

private theorem hidden_lhs_axis0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
private theorem hidden_lhs_axis1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
private theorem hidden_rhs_axis0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
private theorem hidden_rhs_axis1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Into a zero accumulator that product is, at (r, j), the sum over the 2048 input features. -/
private theorem hidden_matmul_apply (a : FVec Ideal S512x2048 .bf16) (b : FVec Ideal S2048x512 .bf16) (r j : Fin 512) :
    matmul dot_S512x2048_S2048x512_S512x512_1_0_0_1_n_n none a b (constant (F := Ideal) S512x512 .f32 0x00000000#32) (ix2 r j)
      = ∑ d : Fin 2048, a (ix2 r d) * b (ix2 d j) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 r j) ((contrEquiv1 dot_S512x2048_S2048x512_S512x512_1_0_0_1_n_n 2048 rfl rfl).symm k) = ix2 r k := funext fun a => Fin.ext (by
    match a with
    | ⟨0, _⟩ => exact hidden_lhs_axis0 _ _
    | ⟨1, _⟩ => exact (hidden_lhs_axis1 _ _).trans hk)
  have er : dot_S512x2048_S2048x512_S512x512_1_0_0_1_n_n.rhsIdx (ix2 r j) ((contrEquiv1 dot_S512x2048_S2048x512_S512x512_1_0_0_1_n_n 2048 rfl rfl).symm k) = ix2 k j := funext fun a => Fin.ext (by
    match a with
    | ⟨0, _⟩ => exact (hidden_rhs_axis0 _ _).trans hk
    | ⟨1, _⟩ => exact hidden_rhs_axis1 _ _)
  rw [el, er]

/-- The activation chain applied to a whole tile is, entry by entry, the tanh form of gelu: the same four constants in
    the same grouping, the cube taken as v * (v * v), and the closing change of format the identity. -/
private theorem gelu_chain_apply (V : FVec Ideal S512x512 .f32) (hb : FTy.bits .bf16 < FTy.bits .f32) (i : S512x512.Idx) :
    (truncf .bf16
      (mulf V (mulf (broadcast S512x512 (Scalar.ofBits (F := Ideal) .f32 0x3F000000#32))
        (addf (broadcast S512x512 (Scalar.ofBits (F := Ideal) .f32 0x3F800000#32))
          (Idealize.ShloMosaic.tanh (mulf (broadcast S512x512 (Scalar.ofBits (F := Ideal) .f32 0x3F4C422A#32))
            (addf V (mulf (broadcast S512x512 (Scalar.ofBits (F := Ideal) .f32 0x3D372713#32)) (mulf V (mulf V V))))))))) hb
        : FVec Ideal S512x512 .bf16) i
      = Cert.Ffn.gelu (V i) := rfl

/-- Hidden activation of token r at unit j of the block: gelu of the row of x0 against the row of x1, plus the bias. -/
theorem hidden_apply (x0 x1 : Vec Ideal S1x512x2048 .f32) (x2 : Vec Ideal S1x1x512 .f32) (r j : Fin 512) :
    k0_pay4 (F := Ideal) x0 x1 x2 (ix2 r j)
      = Cert.Ffn.gelu ((∑ d : Fin 2048, x0 (ix3 (0 : Fin 1) r d) * x1 (ix3 (0 : Fin 1) j d)) + x2 (ix3 (0 : Fin 1) (0 : Fin 1) j)) := by
  unfold k0_pay4
  refine (gelu_chain_apply _ _ _).trans ?_
  refine congrArg Cert.Ffn.gelu ?_
  rw [addf_apply]
  congr 1
  · refine (hidden_matmul_apply _ _ r j).trans ?_
    refine Finset.sum_congr rfl fun d _ => ?_
    rw [truncf_apply, transpose_ix2_apply, truncf_apply]
    congr 1
    · exact shapeCast_1ab_ab_apply x0 _ r d
    · exact shapeCast_1ab_ab_apply x1 _ j d
  · -- the bias row is the same on every token row; its two unit axes carry no position
    refine (broadcastTo_1b_ab_apply _ _ r j).trans ?_
    refine (shapeCast_a_1a_apply _ _ (0 : Fin 1) j).trans ?_
    exact shapeCast_apply x2 _ _ _ (by
      rw [Shape.rowMajor_val_three, Shape.rowMajor_val_one]
      show (0 * 1 + 0) * 512 + j.val = j.val
      omega)

/-- The second weight block, turned so that the hidden unit comes first. -/
theorem turned_apply (x3 : Vec Ideal S1x2048x512 .f32) (j : Fin 512) (d : Fin 2048) :
    k0_pay5 (F := Ideal) x3 (ix2 j d) = x3 (ix3 (0 : Fin 1) d j) := by
  unfold k0_pay5
  refine (transpose_ix2_apply _ _ j d).trans ?_
  rw [truncf_apply]
  exact shapeCast_1ab_ab_apply x3 _ d j

/-! ### The second product: hidden tile [512, 512] times turned weight block [512, 2048]

Its dimension numbers contract the left operand's axis 1 with the right operand's axis 0 and have no batch axis, so the
left operand is read at (row of the result, contraction position) and the right at (contraction position, column). -/

private theorem total_lhs_axis0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
private theorem total_lhs_axis1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
private theorem total_rhs_axis0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
private theorem total_rhs_axis1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Into a zero accumulator that product is, at (r, d), the sum over the 512 hidden units of the block. -/
private theorem total_matmul_apply (a : FVec Ideal S512x512 .bf16) (b : FVec Ideal S512x2048 .bf16) (r : Fin 512) (d : Fin 2048) :
    matmul dot_S512x512_S512x2048_S512x2048_1_0_0_1_n_n none a b (constant (F := Ideal) S512x2048 .f32 0x00000000#32) (ix2 r d)
      = ∑ j : Fin 512, a (ix2 r j) * b (ix2 j d) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r d) ((contrEquiv1 dot_S512x512_S512x2048_S512x2048_1_0_0_1_n_n 512 rfl rfl).symm k) = ix2 r k := funext fun a => Fin.ext (by
    match a with
    | ⟨0, _⟩ => exact total_lhs_axis0 _ _
    | ⟨1, _⟩ => exact (total_lhs_axis1 _ _).trans hk)
  have er : dot_S512x512_S512x2048_S512x2048_1_0_0_1_n_n.rhsIdx (ix2 r d) ((contrEquiv1 dot_S512x512_S512x2048_S512x2048_1_0_0_1_n_n 512 rfl rfl).symm k) = ix2 k d := funext fun a => Fin.ext (by
    match a with
    | ⟨0, _⟩ => exact (total_rhs_axis0 _ _).trans hk
    | ⟨1, _⟩ => exact total_rhs_axis1 _ _)
  rw [el, er]

/-- The running total after a step: what it was, plus the hidden tile times the turned weight block. -/
theorem total_apply (v29 : FVec Ideal S512x512 .bf16) (v33 : Vec Ideal S512x2048 .f32) (v34 : FVec Ideal S512x2048 .bf16)
    (r : Fin 512) (d : Fin 2048) :
    k0_pay1 (F := Ideal) v29 v33 v34 (ix2 r d) = v33 (ix2 r d) + ∑ j : Fin 512, v29 (ix2 r j) * v34 (ix2 j d) := by
  unfold k0_pay1
  rw [shapeCast_self, addf_apply]
  exact congrArg (v33 (ix2 r d) + ·) (total_matmul_apply v29 v34 r d)

/-- The tile handed out: the running total plus the second bias along the feature axis. -/
theorem handed_apply (v43 : Vec Ideal S512x2048 .f32) (v44 : Vec Ideal S1x1x2048 .f32) (r : Fin 512) (d : Fin 2048) :
    k0_pay2 (F := Ideal) v43 v44 (ix3 (0 : Fin 1) r d) = v43 (ix2 r d) + v44 (ix3 (0 : Fin 1) (0 : Fin 1) d) := by
  unfold k0_pay2
  refine (shapeCast_ab_1ab_apply _ _ (0 : Fin 1) r d).trans ?_
  rw [addf_apply]
  congr 1
  -- the bias row is the same on every token row; its two unit axes carry no position
  refine (broadcastTo_1b_ab_apply _ _ r d).trans ?_
  refine (shapeCast_a_1a_apply _ _ (0 : Fin 1) d).trans ?_
  exact shapeCast_apply v44 _ _ _ (by
    rw [Shape.rowMajor_val_three, Shape.rowMajor_val_one]
    show (0 * 1 + 0) * 2048 + d.val = d.val
    omega)

end Cert.KernelIdeal.FfnPayload

end
-- ==== Proof.Blocks.lean ====
/-
  Where each grid step's input blocks sit in the argument arrays.

  The grid is 8 experts by 4 token tiles by 16 hidden blocks, the hidden block moving fastest: step n works on expert
  n / 64, token tile (n / 16) % 4 and hidden block n % 16. The token array reaches the kernel regrouped by expert, and the
  two bias arrays with a unit axis inserted; both regroupings keep the row-major order, so entry (e, t, d) of the regrouped
  tokens is entry (e * 2048 + t, d) of the argument, and entry (e, 0, h) of a regrouped bias is entry (e, h).
-/
import proofs.«103591_j30734785970328_1_alg».proof.Proof.Gen.KernelIdeal.Frame
import proofs.«103591_j30734785970328_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.FfnBlocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The expert a grid step works on. -/
abbrev ptE (t : Fin cfg0.N) : Fin 8 := ⟨t.val / 64, by have := t.isLt; have hN : cfg0.N = 512 := N_0; omega⟩
/-- Its token tile. -/
abbrev ptM (t : Fin cfg0.N) : Fin 4 := ⟨t.val / 16 % 4, Nat.mod_lt _ (by decide)⟩
/-- Its hidden block. -/
abbrev ptH (t : Fin cfg0.N) : Fin 16 := ⟨t.val % 16, Nat.mod_lt _ (by decide)⟩

/-! Which block of its array each window reads at a step: the expert along the leading axis, then the token tile or the
    hidden block on the axis the window tiles, block 0 on every axis it takes whole. Settled once, over all 512 steps. -/

private theorem tok_block : ∀ t : Fin cfg0.N,
    win0_0.index t 0 = t.val / 64 ∧ win0_0.index t 1 = t.val / 16 % 4 ∧ win0_0.index t 2 = 0 :=
  (by decide +kernel : ∀ t : Fin grid0.N, _)
private theorem w1_block : ∀ t : Fin cfg0.N,
    win0_1.index t 0 = t.val / 64 ∧ win0_1.index t 1 = t.val % 16 ∧ win0_1.index t 2 = 0 :=
  (by decide +kernel : ∀ t : Fin grid0.N, _)
private theorem b1_block : ∀ t : Fin cfg0.N,
    win0_2.index t 0 = t.val / 64 ∧ win0_2.index t 1 = 0 ∧ win0_2.index t 2 = t.val % 16 :=
  (by decide +kernel : ∀ t : Fin grid0.N, _)
private theorem w2_block : ∀ t : Fin cfg0.N,
    win0_3.index t 0 = t.val / 64 ∧ win0_3.index t 1 = 0 ∧ win0_3.index t 2 = t.val % 16 :=
  (by decide +kernel : ∀ t : Fin grid0.N, _)
private theorem b2_block : ∀ t : Fin cfg0.N,
    win0_4.index t 0 = t.val / 64 ∧ win0_4.index t 1 = 0 ∧ win0_4.index t 2 = 0 :=
  (by decide +kernel : ∀ t : Fin grid0.N, _)

/-! The three arrays regrouped before the kernel runs: what the kernel finds in each is the argument read in the same
    row-major order. -/

private theorem tokens_regrouped (c : Dev nD) : (V m c main_v0 : Vec F S8x2048x2048 .f32)
    = shapeCast _ (m ((c.tc : Thread nD τ).loc main_arg0)) shapeCasts_S16384x2048_S8x2048x2048 := by
  show StableHlo.after hostOps0 (fun b => m (c, b)) (Proc.devRef .tc main_v0) = _
  after_results
  rfl
private theorem b1_regrouped (c : Dev nD) : (V m c main_v1 : Vec F S8x1x8192 .f32)
    = shapeCast _ (m ((c.tc : Thread nD τ).loc main_arg2)) shapeCasts_S8x8192_S8x1x8192 := by
  show StableHlo.after hostOps0 (fun b => m (c, b)) (Proc.devRef .tc main_v1) = _
  after_results
  rfl
private theorem b2_regrouped (c : Dev nD) : (V m c main_v2 : Vec F S8x1x2048 .f32)
    = shapeCast _ (m ((c.tc : Thread nD τ).loc main_arg4)) shapeCasts_S8x2048_S8x1x2048 := by
  show StableHlo.after hostOps0 (fun b => m (c, b)) (Proc.devRef .tc main_v2) = _
  after_results
  rfl

/-- Entry (e, r, d) of the tokens regrouped by expert is entry (e * 2048 + r, d) of the flat token array: both sit at
    position (e * 2048 + r) * 2048 + d. -/
private theorem regroup_tokens (x : Vec F S16384x2048 .f32) (i : S8x2048x2048.Idx) (k : S16384x2048.Idx)
    (h0 : (k 0).val = (i 0).val * 2048 + (i 1).val) (h1 : (k 1).val = (i 2).val) :
    shapeCast S8x2048x2048 x shapeCasts_S16384x2048_S8x2048x2048 i = x k :=
  shapeCast_apply x shapeCasts_S16384x2048_S8x2048x2048 i k (by
    rw [Shape.rowMajor_val_two, Shape.rowMajor_val_three, h0, h1]
    rfl)
/-- Entry (e, 0, h) of the first bias with a unit axis inserted is entry (e, h) of the bias: position e * 8192 + h. -/
private theorem regroup_b1 (x : Vec F S8x8192 .f32) (i : S8x1x8192.Idx) (k : S8x8192.Idx)
    (h0 : (k 0).val = (i 0).val) (hu : (i 1).val = 0) (h1 : (k 1).val = (i 2).val) :
    shapeCast S8x1x8192 x shapeCasts_S8x8192_S8x1x8192 i = x k :=
  shapeCast_apply x shapeCasts_S8x8192_S8x1x8192 i k (by
    rw [Shape.rowMajor_val_two, Shape.rowMajor_val_three, h0, h1, hu]
    show (i 0).val * 8192 + (i 2).val = ((i 0).val * 1 + 0) * 8192 + (i 2).val
    omega)
/-- Entry (e, 0, d) of the second bias with a unit axis inserted is entry (e, d) of the bias: position e * 2048 + d. -/
private theorem regroup_b2 (x : Vec F S8x2048 .f32) (i : S8x1x2048.Idx) (k : S8x2048.Idx)
    (h0 : (k 0).val = (i 0).val) (hu : (i 1).val = 0) (h1 : (k 1).val = (i 2).val) :
    shapeCast S8x1x2048 x shapeCasts_S8x2048_S8x1x2048 i = x k :=
  shapeCast_apply x shapeCasts_S8x2048_S8x1x2048 i k (by
    rw [Shape.rowMajor_val_two, Shape.rowMajor_val_three, h0, h1, hu]
    show (i 0).val * 2048 + (i 2).val = ((i 0).val * 1 + 0) * 2048 + (i 2).val
    omega)

/-- The token tile of a step, in the argument array. -/
theorem tokens_apply (c : Dev nD) (t : Fin cfg0.N) (r : Fin 512) (d : Fin 2048) :
    (iblk m c 0 t : Vec F S1x512x2048 .f32) (ix3 (0 : Fin 1) r d)
      = m ((c.tc : Thread nD τ).loc main_arg0) (ix2 (Cert.Ffn.tokRow (ptE t) (Cert.Ffn.tileRow (ptM t) r)) d) := by
  obtain ⟨h0, h1, h2⟩ := tok_block t
  unfold iblk
  rw [View.read_apply]
  show V m c main_v0 _ = _
  rw [tokens_regrouped]
  refine regroup_tokens _ _ _ ?_ ?_
  · show t.val / 64 * 2048 + (t.val / 16 % 4 * 512 + r.val)
      = (win0_0.index t 0 * 1 + 1 * 0) * 2048 + (win0_0.index t 1 * 512 + 1 * r.val)
    rw [h0, h1]; omega
  · show d.val = win0_0.index t 2 * 2048 + 1 * d.val
    rw [h2]; omega

/-- The first weight block of a step. -/
theorem w1_apply (c : Dev nD) (t : Fin cfg0.N) (j : Fin 512) (d : Fin 2048) :
    (iblk m c 1 t : Vec F S1x512x2048 .f32) (ix3 (0 : Fin 1) j d)
      = m ((c.tc : Thread nD τ).loc main_arg1) (ix3 (ptE t) (Cert.Ffn.hidAt (ptH t) j) d) := by
  obtain ⟨h0, h1, h2⟩ := w1_block t
  unfold iblk
  rw [View.read_apply]
  show V m c main_arg1 _ = _
  rw [V_main_arg1]
  congr 1
  funext a
  apply Fin.ext
  match a with
  | ⟨0, _⟩ => show win0_1.index t 0 * 1 + 1 * 0 = t.val / 64; rw [h0]; omega
  | ⟨1, _⟩ => show win0_1.index t 1 * 512 + 1 * j.val = t.val % 16 * 512 + j.val; rw [h1]; omega
  | ⟨2, _⟩ => show win0_1.index t 2 * 2048 + 1 * d.val = d.val; rw [h2]; omega

/-- The first bias block of a step. -/
theorem b1_apply (c : Dev nD) (t : Fin cfg0.N) (j : Fin 512) :
    (iblk m c 2 t : Vec F S1x1x512 .f32) (ix3 (0 : Fin 1) (0 : Fin 1) j)
      = m ((c.tc : Thread nD τ).loc main_arg2) (ix2 (ptE t) (Cert.Ffn.hidAt (ptH t) j)) := by
  obtain ⟨h0, h1, h2⟩ := b1_block t
  unfold iblk
  rw [View.read_apply]
  show V m c main_v1 _ = _
  rw [b1_regrouped]
  refine regroup_b1 _ _ _ ?_ ?_ ?_
  · show t.val / 64 = win0_2.index t 0 * 1 + 1 * 0
    rw [h0]; omega
  · show win0_2.index t 1 * 1 + 1 * 0 = 0
    rw [h1]
  · show t.val % 16 * 512 + j.val = win0_2.index t 2 * 512 + 1 * j.val
    rw [h2]; omega

/-- The second weight block of a step. -/
theorem w2_apply (c : Dev nD) (t : Fin cfg0.N) (d : Fin 2048) (j : Fin 512) :
    (iblk m c 3 t : Vec F S1x2048x512 .f32) (ix3 (0 : Fin 1) d j)
      = m ((c.tc : Thread nD τ).loc main_arg3) (ix3 (ptE t) d (Cert.Ffn.hidAt (ptH t) j)) := by
  obtain ⟨h0, h1, h2⟩ := w2_block t
  unfold iblk
  rw [View.read_apply]
  show V m c main_arg3 _ = _
  rw [V_main_arg3]
  congr 1
  funext a
  apply Fin.ext
  match a with
  | ⟨0, _⟩ => show win0_3.index t 0 * 1 + 1 * 0 = t.val / 64; rw [h0]; omega
  | ⟨1, _⟩ => show win0_3.index t 1 * 2048 + 1 * d.val = d.val; rw [h1]; omega
  | ⟨2, _⟩ => show win0_3.index t 2 * 512 + 1 * j.val = t.val % 16 * 512 + j.val; rw [h2]; omega

/-- The second bias block of a step. -/
theorem b2_apply (c : Dev nD) (t : Fin cfg0.N) (d : Fin 2048) :
    (iblk m c 4 t : Vec F S1x1x2048 .f32) (ix3 (0 : Fin 1) (0 : Fin 1) d)
      = m ((c.tc : Thread nD τ).loc main_arg4) (ix2 (ptE t) d) := by
  obtain ⟨h0, h1, h2⟩ := b2_block t
  unfold iblk
  rw [View.read_apply]
  show V m c main_v2 _ = _
  rw [b2_regrouped]
  refine regroup_b2 _ _ _ ?_ ?_ ?_
  · show t.val / 64 = win0_4.index t 0 * 1 + 1 * 0
    rw [h0]; omega
  · show win0_4.index t 1 * 1 + 1 * 0 = 0
    rw [h1]
  · show d.val = win0_4.index t 2 * 2048 + 1 * d.val
    rw [h2]; omega

end Cert.KernelIdeal.FfnBlocks

end
-- ==== Proof.Accum.lean ====
/-
  The running total, step by step.

  Steps run through the grid with the hidden block moving fastest, so the sixteen steps of one token tile of one expert
  are consecutive: n, n + 1, …, n + 15 with n a multiple of 16. The first stores zero plus block 0's product, each later one
  adds its own block's product to what the step before left. So after a step at hidden block k the scratch holds the sum of
  the products of blocks 0 … k, for that step's expert and token tile; and the tile handed out at k = 15 is the sum of all
  sixteen, which is the whole sum over the hidden axis, plus the second bias.
-/
import proofs.«103591_j30734785970328_1_alg».proof.Proof.Pieces
import proofs.«103591_j30734785970328_1_alg».proof.Proof.Payloads
import proofs.«103591_j30734785970328_1_alg».proof.Proof.Blocks
import proofs.«103591_j30734785970328_1_alg».proof.Proof.Spec

noncomputable section

namespace Cert.KernelIdeal.FfnAccum

open Idealize.ShloMosaic Idealize.ShloMosaic.TcCoe Idealize.ShloMosaic.ValueIdx Idealize.SL.Sem
open Cert.KernelIdeal Cert.KernelIdeal.Gen Cert.KernelIdeal.FfnBlocks Cert.KernelIdeal.FfnPayload Cert.KernelIdeal.FfnPieces
open Cert.Ffn (tokRow tileRow hidAt blockTerm)

/-! ### One step's product, over any blocks that sit where the grid says -/

section Step
variable (X : (⟨2, ![16384, 2048]⟩ : Shape).Idx → EReal) (W1 : (⟨3, ![8, 8192, 2048]⟩ : Shape).Idx → EReal)
  (B1 : (⟨2, ![8, 8192]⟩ : Shape).Idx → EReal) (W2 : (⟨3, ![8, 2048, 8192]⟩ : Shape).Idx → EReal)
variable (x0 x1 : Vec Ideal S1x512x2048 .f32) (x2 : Vec Ideal S1x1x512 .f32) (x3 : Vec Ideal S1x2048x512 .f32)
variable (e : Fin 8) (mt : Fin 4) (k : Fin 16)

/-- The hidden tile times the turned weight block is hidden block k's contribution. -/
theorem product_eq_blockTerm
    (h0 : ∀ (r : Fin 512) (d : Fin 2048), x0 (ix3 (0 : Fin 1) r d) = X (ix2 (tokRow e (tileRow mt r)) d))
    (h1 : ∀ (j : Fin 512) (d : Fin 2048), x1 (ix3 (0 : Fin 1) j d) = W1 (ix3 e (hidAt k j) d))
    (h2 : ∀ j : Fin 512, x2 (ix3 (0 : Fin 1) (0 : Fin 1) j) = B1 (ix2 e (hidAt k j)))
    (h3 : ∀ (d : Fin 2048) (j : Fin 512), x3 (ix3 (0 : Fin 1) d j) = W2 (ix3 e d (hidAt k j)))
    (r : Fin 512) (d : Fin 2048) :
    ∑ j : Fin 512, k0_pay4 (F := Ideal) x0 x1 x2 (ix2 r j) * k0_pay5 (F := Ideal) x3 (ix2 j d)
      = blockTerm X W1 B1 W2 e (tileRow mt r) d k.val := by
  unfold blockTerm
  rw [dif_pos k.isLt]
  refine Finset.sum_congr rfl fun j _ => ?_
  rw [hidden_apply, turned_apply, h3, h2]
  unfold Cert.Ffn.act Cert.Ffn.pre
  simp only [h0, h1]

/-- The scratch after a step: what it held, plus the block's contribution. -/
theorem total_step
    (h0 : ∀ (r : Fin 512) (d : Fin 2048), x0 (ix3 (0 : Fin 1) r d) = X (ix2 (tokRow e (tileRow mt r)) d))
    (h1 : ∀ (j : Fin 512) (d : Fin 2048), x1 (ix3 (0 : Fin 1) j d) = W1 (ix3 e (hidAt k j) d))
    (h2 : ∀ j : Fin 512, x2 (ix3 (0 : Fin 1) (0 : Fin 1) j) = B1 (ix2 e (hidAt k j)))
    (h3 : ∀ (d : Fin 2048) (j : Fin 512), x3 (ix3 (0 : Fin 1) d j) = W2 (ix3 e d (hidAt k j)))
    (acc : Vec Ideal S512x2048 .f32) (r : Fin 512) (d : Fin 2048) :
    k0_pay1 (F := Ideal) (k0_pay4 x0 x1 x2) acc (k0_pay5 x3) (ix2 r d)
      = acc (ix2 r d) + blockTerm X W1 B1 W2 e (tileRow mt r) d k.val := by
  rw [total_apply, product_eq_blockTerm X W1 B1 W2 x0 x1 x2 x3 e mt k h0 h1 h2 h3 r d]

end Step

/-! ### The accumulation over the grid -/

variable (m : (ℓ : Loc nD τ sig) → Buf (Elt Ideal) ℓ)

/-- The five float arguments, as the core finds them. -/
abbrev argX (c : Dev nD) : (⟨2, ![16384, 2048]⟩ : Shape).Idx → EReal := m ((c.tc : Thread nD τ).loc main_arg0)
abbrev argW1 (c : Dev nD) : (⟨3, ![8, 8192, 2048]⟩ : Shape).Idx → EReal := m ((c.tc : Thread nD τ).loc main_arg1)
abbrev argB1 (c : Dev nD) : (⟨2, ![8, 8192]⟩ : Shape).Idx → EReal := m ((c.tc : Thread nD τ).loc main_arg2)
abbrev argW2 (c : Dev nD) : (⟨3, ![8, 2048, 8192]⟩ : Shape).Idx → EReal := m ((c.tc : Thread nD τ).loc main_arg3)
abbrev argB2 (c : Dev nD) : (⟨2, ![8, 2048]⟩ : Shape).Idx → EReal := m ((c.tc : Thread nD τ).loc main_arg4)

/-- The sum of the contributions of hidden blocks 0 … (hidden block of step t), for step t's expert and token tile. -/
def partialSum (c : Dev nD) (t : Fin cfg0.N) (r : Fin 512) (d : Fin 2048) : EReal :=
  ∑ k ∈ Finset.range (t.val % 16 + 1),
    blockTerm (argX m c) (argW1 m c) (argB1 m c) (argW2 m c) (ptE t) (tileRow (ptM t) r) d k

/-- What a step adds, in the specification's terms. -/
theorem step_total (c : Dev nD) (t : Fin cfg0.N) (acc : Vec Ideal S512x2048 .f32) (r : Fin 512) (d : Fin 2048) :
    k0_pay1 (F := Ideal) (k0_pay4 (iblk m c 0 t) (iblk m c 1 t) (iblk m c 2 t)) acc (k0_pay5 (iblk m c 3 t)) (ix2 r d)
      = acc (ix2 r d) + blockTerm (argX m c) (argW1 m c) (argB1 m c) (argW2 m c) (ptE t) (tileRow (ptM t) r) d (t.val % 16) :=
  total_step (argX m c) (argW1 m c) (argB1 m c) (argW2 m c) (iblk m c 0 t) (iblk m c 1 t) (iblk m c 2 t) (iblk m c 3 t)
    (ptE t) (ptM t) (ptH t) (fun r d => tokens_apply m c t r d) (fun j d => w1_apply m c t j d) (fun j => b1_apply m c t j)
    (fun d j => w2_apply m c t d j) acc r d

/-- After every step the scratch holds the partial sum up to that step's hidden block. -/
theorem scratch_after (c : Dev nD) : ∀ (n : ℕ) (hn : n < cfg0.N) (r : Fin 512) (d : Fin 2048),
    (outsAt0 m c n hn).2 (ix2 r d) = partialSum m c ⟨n, hn⟩ r d := by
  intro n
  induction n with
  | zero =>
    intro hn r d
    rw [outsAt0_A m c ⟨0, hn⟩ (Nat.zero_mod _) (show ¬(0 : ℕ) % 16 = 15 by decide)]
    dsimp only
    refine (congrFun (scratch_first c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩)
      scM0_0 (Memref.isWhole_whole _) _ _ (iblk m c 0 ⟨0, hn⟩) (iblk m c 1 ⟨0, hn⟩) (iblk m c 2 ⟨0, hn⟩) (iblk m c 3 ⟨0, hn⟩)
      (iblk m c 4 ⟨0, hn⟩)) (ix2 r d)).trans ?_
    rw [step_total m c ⟨0, hn⟩ _ r d, reset_apply, zero_add]
    unfold partialSum
    simp only [Nat.zero_mod, zero_add, Finset.sum_range_one]
  | succ n ih =>
    intro hn r d
    have hN : cfg0.N = 512 := N_0
    have hn' : n < cfg0.N := Nat.lt_of_succ_lt hn
    by_cases h0 : (n + 1) % 16 = 0
    · have h1 : ¬(n + 1) % 16 = 15 := by omega
      rw [outsAt0_A m c ⟨n + 1, hn⟩ h0 h1]
      dsimp only
      refine (congrFun (scratch_first c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩)
        scM0_0 (Memref.isWhole_whole _) _ _ (iblk m c 0 ⟨n + 1, hn⟩) (iblk m c 1 ⟨n + 1, hn⟩) (iblk m c 2 ⟨n + 1, hn⟩) (iblk m c 3 ⟨n + 1, hn⟩)
        (iblk m c 4 ⟨n + 1, hn⟩)) (ix2 r d)).trans ?_
      rw [step_total m c ⟨n + 1, hn⟩ _ r d, reset_apply, zero_add]
      unfold partialSum
      show _ = ∑ k ∈ Finset.range ((n + 1) % 16 + 1), _
      rw [h0]
      simp only [zero_add, Finset.sum_range_one]
    · have hprev : (outsAt0 m c n hn').2 (ix2 r d) = partialSum m c ⟨n, hn'⟩ r d := ih hn' r d
      have hE : ptE (⟨n, hn'⟩ : Fin cfg0.N) = ptE ⟨n + 1, hn⟩ := Fin.ext (by show n / 64 = (n + 1) / 64; omega)
      have hM : ptM (⟨n, hn'⟩ : Fin cfg0.N) = ptM ⟨n + 1, hn⟩ := Fin.ext (by show n / 16 % 4 = (n + 1) / 16 % 4; omega)
      have hK : n % 16 + 1 = (n + 1) % 16 := by omega
      have hgoal : (outsAt0 m c n hn').2 (ix2 r d)
          + blockTerm (argX m c) (argW1 m c) (argB1 m c) (argW2 m c) (ptE ⟨n + 1, hn⟩) (tileRow (ptM ⟨n + 1, hn⟩) r) d ((n + 1) % 16)
          = partialSum m c ⟨n + 1, hn⟩ r d := by
        rw [hprev]
        unfold partialSum
        show (∑ k ∈ Finset.range (n % 16 + 1), _) + _ = ∑ k ∈ Finset.range ((n + 1) % 16 + 1), _
        rw [hE, hM, hK, Finset.sum_range_succ]
      by_cases h1 : (n + 1) % 16 = 15
      · rw [outsAt0_C m c ⟨n + 1, hn⟩ h0 h1]
        dsimp only
        refine (congrFun (scratch_last c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩)
          scM0_0 (Memref.isWhole_whole _) _ _ (iblk m c 0 ⟨n + 1, hn⟩) (iblk m c 1 ⟨n + 1, hn⟩) (iblk m c 2 ⟨n + 1, hn⟩) (iblk m c 3 ⟨n + 1, hn⟩)
          (iblk m c 4 ⟨n + 1, hn⟩) _) (ix2 r d)).trans ?_
        rw [step_total m c ⟨n + 1, hn⟩ _ r d]
        exact hgoal
      · rw [outsAt0_B m c ⟨n + 1, hn⟩ h0 h1]
        dsimp only
        refine (congrFun (scratch_middle c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩)
          scM0_0 (Memref.isWhole_whole _) _ _ (iblk m c 0 ⟨n + 1, hn⟩) (iblk m c 1 ⟨n + 1, hn⟩) (iblk m c 2 ⟨n + 1, hn⟩) (iblk m c 3 ⟨n + 1, hn⟩)
          (iblk m c 4 ⟨n + 1, hn⟩) _) (ix2 r d)).trans ?_
        rw [step_total m c ⟨n + 1, hn⟩ _ r d]
        exact hgoal

/-- The tile handed out by the step that ends a token tile is the specification's output there. -/
theorem handed_after (c : Dev nD) (t : Fin cfg0.N) (h15 : t.val % 16 = 15) (r : Fin 512) (d : Fin 2048) :
    (outsAt0 m c t.val t.isLt).1 (ix3 (0 : Fin 1) r d)
      = Cert.Ffn.out (argX m c) (argW1 m c) (argB1 m c) (argW2 m c) (argB2 m c) (ptE t) (tileRow (ptM t) r) d := by
  have h0 : ¬t.val % 16 = 0 := by omega
  have hs := scratch_after m c t.val t.isLt r d
  rw [outsAt0_C m c t h0 h15] at hs ⊢
  dsimp only at hs ⊢
  refine (congrFun (handed_last c (grid0.coords t) (ms0_0 t) (hs0_0 t) (ms0_1 t) (hs0_1 t)
    (ms0_2 t) (hs0_2 t) (ms0_3 t) (hs0_3 t) (ms0_4 t) (hs0_4 t) (ms0_5 t) (hs0_5 t)
    scM0_0 (Memref.isWhole_whole _) _ _ (iblk m c 0 t) (iblk m c 1 t) (iblk m c 2 t) (iblk m c 3 t)
    (iblk m c 4 t) _) (ix3 (0 : Fin 1) r d)).trans ?_
  rw [handed_apply, b2_apply m c t d]
  rw [scratch_last c (grid0.coords t) (ms0_0 t) (hs0_0 t) (ms0_1 t) (hs0_1 t)
    (ms0_2 t) (hs0_2 t) (ms0_3 t) (hs0_3 t) (ms0_4 t) (hs0_4 t) (ms0_5 t) (hs0_5 t)
    scM0_0 (Memref.isWhole_whole _) _ _ (iblk m c 0 t) (iblk m c 1 t) (iblk m c 2 t) (iblk m c 3 t)
    (iblk m c 4 t) _] at hs
  rw [hs]
  unfold partialSum Cert.Ffn.out
  rw [h15, Cert.Ffn.sum_blockTerm]

end Cert.KernelIdeal.FfnAccum

end
-- ==== Proof.Final.lean ====
/-
  The result array.

  The kernel writes its output once per token tile, at the tile's last step (hidden block 15); the 32 tiles (8 experts
  by 4) tile the [8, 2048, 2048] output array, so every entry is written exactly by its tile's last step, and there it
  is the specification's output for that expert, token and feature. The program then lays the experts' tokens end to end:
  entry (r, d) of the [16384, 2048] result is entry (r / 2048, r % 2048, d), in row-major order.
-/
import proofs.«103591_j30734785970328_1_alg».proof.Proof.Accum
import Idealize.ShloMosaic.Lib.Pipeline.Value
import Idealize.ShloMosaic.Lib.StableHlo.Run

noncomputable section

namespace Cert.KernelIdeal.FfnFinal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.FfnBlocks Cert.KernelIdeal.FfnAccum
open Cert.Ffn (tokRow tileRow hidAt)

variable (m : (ℓ : Loc nD τ sig) → Buf (Elt Ideal) ℓ) (ρ : Dev nD → PrngReg)

/-- Equal coordinates, equal output entries. -/
theorem out_congr {X : (⟨2, ![16384, 2048]⟩ : Shape).Idx → EReal} {W1 : (⟨3, ![8, 8192, 2048]⟩ : Shape).Idx → EReal}
    {B1 : (⟨2, ![8, 8192]⟩ : Shape).Idx → EReal} {W2 : (⟨3, ![8, 2048, 8192]⟩ : Shape).Idx → EReal}
    {B2 : (⟨2, ![8, 2048]⟩ : Shape).Idx → EReal} {e e' : Fin 8} {t t' : Fin 2048} {d d' : Fin 2048}
    (he : e = e') (ht : t = t') (hd : d = d') :
    Cert.Ffn.out X W1 B1 W2 B2 e t d = Cert.Ffn.out X W1 B1 W2 B2 e' t' d' := by
  subst he ht hd; rfl

/-- The kernel's output array, experts by tokens by features: entry (e, t, d) is the specification's output. -/
def kernelOut (c : Dev nD) : S8x2048x2048.Idx → EReal := fun i =>
  Cert.Ffn.out (argX m c) (argW1 m c) (argB1 m c) (argW2 m c) (argB2 m c)
    ⟨(i 0).val, (i 0).isLt⟩ ⟨(i 1).val, (i 1).isLt⟩ ⟨(i 2).val, (i 2).isLt⟩

/-- Where the output window's block sits at each step: expert, token tile, the whole feature axis. -/
theorem out_index : ∀ t : Fin cfg0.N, win0_5.index t (0 : Fin 3) = t.val / 64 ∧ win0_5.index t (1 : Fin 3) = t.val / 16 % 4
    ∧ win0_5.index t (2 : Fin 3) = 0 :=
  (by decide +kernel : ∀ t : Fin grid0.N, _)

/-- What the last step of a token tile writes back is that tile of the output array. -/
theorem flushed_eq (c : Dev nD) (t : Fin cfg0.N) (hf : (cfg0.win 5).flush t = true) :
    (dats m 0 c).flushed 5 t = ((cfg0.win 5).blk t).view.read (Elt Ideal) (kernelOut m c) := by
  have h15 : t.val % 16 = 15 := (flush0_5 t).mp hf
  obtain ⟨e0, e1, e2⟩ := out_index t
  show (cfg0.win 5).cut (grid0.coords t) ((dats m 0 c).after 5 t) = _
  rw [after0_5]
  have key : ∀ y : S1x512x2048.Idx,
      (outsAt0 m c t.val t.isLt).1 y = kernelOut m c (((cfg0.win 5).blk t).view.emb y) := by
    intro y
    obtain ⟨p, r, d, rfl⟩ : ∃ (p : Fin 1) (r : Fin 512) (d : Fin 2048), y = ix3 p r d := ⟨y 0, y 1, y 2, eq_ix3 y⟩
    obtain rfl : p = 0 := Subsingleton.elim _ _
    rw [handed_after m c t h15 r d]
    unfold kernelOut
    refine out_congr (Fin.ext ?_) (Fin.ext ?_) (Fin.ext ?_)
    · show t.val / 64 = win0_5.index t (0 : Fin 3) * 1 + 1 * 0
      omega
    · show t.val / 16 % 4 * 512 + r.val = win0_5.index t (1 : Fin 3) * 512 + 1 * r.val
      omega
    · show d.val = win0_5.index t (2 : Fin 3) * 2048 + 1 * d.val
      omega
  funext y
  exact key y

/-- An entry is in a step's output block iff each coordinate is in the block's range. -/
theorem mem_block (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v3).slice (win0_5.rect t)).set ↔ _
  rw [View.set_slice_whole, Rect.mem_set_unit]
  exact Iff.rfl

/-- Every entry of the output array lies in the block written back by its token tile's last step. -/
theorem covered (i : S8x2048x2048.Idx) :
    ∃ t : Fin cfg0.N, (cfg0.win 5).flush t = true ∧ i ∈ ((cfg0.win 5).blk t).view.set := by
  have hN : cfg0.N = 512 := N_0
  have hi0 : (i 0).val < 8 := (i 0).isLt
  have hi1 : (i 1).val < 2048 := (i 1).isLt
  have hi2 : (i 2).val < 2048 := (i 2).isLt
  have ht : (i 0).val * 64 + (i 1).val / 512 * 16 + 15 < cfg0.N := by omega
  refine ⟨⟨(i 0).val * 64 + (i 1).val / 512 * 16 + 15, ht⟩, (flush0_5 _).mpr (by show ((i 0).val * 64 + (i 1).val / 512 * 16 + 15) % 16 = 15; omega), ?_⟩
  obtain ⟨e0, e1, e2⟩ := out_index ⟨(i 0).val * 64 + (i 1).val / 512 * 16 + 15, ht⟩
  have f0 : ((i 0).val * 64 + (i 1).val / 512 * 16 + 15) / 64 = (i 0).val := by omega
  have f1 : ((i 0).val * 64 + (i 1).val / 512 * 16 + 15) / 16 % 4 = (i 1).val / 512 := by omega
  rw [mem_block]
  intro a
  match a with
  | ⟨0, _⟩ =>
    show win0_5.index _ (0 : Fin 3) * 1 ≤ (i 0).val ∧ (i 0).val < win0_5.index _ (0 : Fin 3) * 1 + 1
    rw [e0]; show _ / 64 * 1 ≤ _ ∧ _ < _ / 64 * 1 + 1; rw [f0]; omega
  | ⟨1, _⟩ =>
    show win0_5.index _ (1 : Fin 3) * 512 ≤ (i 1).val ∧ (i 1).val < win0_5.index _ (1 : Fin 3) * 512 + 512
    rw [e1]; show _ / 16 % 4 * 512 ≤ _ ∧ _ < _ / 16 % 4 * 512 + 512; rw [f1]; omega
  | ⟨2, _⟩ =>
    show win0_5.index _ (2 : Fin 3) * 2048 ≤ (i 2).val ∧ (i 2).val < win0_5.index _ (2 : Fin 3) * 2048 + 2048
    rw [e2]; omega

/-- So after the run the output array holds the specification's outputs. -/
theorem array_eq (c : Dev nD) : (dats m 0 c).arrAt 5 cfg0.N = kernelOut m c :=
  (dats m 0 c).arrAt_eq_of_cover 5 (kernelOut m c) (flushed_eq m c) (covered)

/-- Laying the experts' tokens end to end: row r is token r % 2048 of expert r / 2048. -/
theorem laid_out (c : Dev nD) :
    shapeCast S16384x2048 (kernelOut m c) shapeCasts_S8x2048x2048_S16384x2048
      = Cert.Ffn.result (argX m c) (argW1 m c) (argB1 m c) (argW2 m c) (argB2 m c) := by
  funext i
  have h0 : (i 0).val < 16384 := (i 0).isLt
  have h1 : (i 1).val < 2048 := (i 1).isLt
  let src : S8x2048x2048.Idx := fun a => match a with
    | ⟨0, _⟩ => ⟨(i 0).val / 2048, by show (i 0).val / 2048 < 8; omega⟩
    | ⟨1, _⟩ => ⟨(i 0).val % 2048, by show (i 0).val % 2048 < 2048; omega⟩
    | ⟨2, _⟩ => ⟨(i 1).val, h1⟩
  rw [shapeCast_apply (kernelOut m c) shapeCasts_S8x2048x2048_S16384x2048 i src
    (by rewrite [Shape.rowMajor_val_three, Shape.rowMajor_val_two]
        show ((i 0).val / 2048 * 2048 + (i 0).val % 2048) * 2048 + (i 1).val = (i 0).val * 2048 + (i 1).val
        omega)]
  unfold kernelOut Cert.Ffn.result
  exact out_congr (Fin.ext rfl) (Fin.ext rfl) (Fin.ext rfl)

/-- What the program's result buffer holds after the lines that follow the kernel. -/
theorem tail_eq (c : Dev nD) :
    Pipeline.afterTail₀ cfgs (dats m) 0 (V0 m) [hostOps1] c main_v4
      = Cert.Ffn.result (argX m c) (argW1 m c) (argB1 m c) (argW2 m c) (argB2 m c) := by
  rw [← laid_out m c, ← array_eq m c]
  unfold Pipeline.afterTail₀
  show StableHlo.after hostOps1 _ (Proc.devRef .tc main_v4) = _
  after_results
  exact congrArg (fun x => shapeCast S16384x2048 x shapeCasts_S8x2048x2048_S16384x2048)
    (Pipeline.withArrays_arr spec0 launch0.win.arr_inj c _ _ 5)

/-- The run, read: the result at the specification's array, the six arguments unchanged. -/
theorem run : θ_run defs (onTc (τ := τ) (main (F := Ideal))) ⟨m, fun _ => 0, ρ⟩ fun r => ∀ c : Dev nD,
      r.2.mem ((c.tc : Thread nD τ).loc main_v4) = Cert.Ffn.result (argX m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.FfnFinal

end
-- ==== Proof.RefSide.lean ====
/-
  The reference computes the specification.

  Its program is the textbook one: regroup the tokens by expert, a batched product with the first weights, add the first
  bias, GELU in its tanh form, a batched product with the second weights, add the second bias, lay the experts' tokens end
  to end again. Read entry by entry over the extended reals each batched product is a plain sum of products over the
  contracted axis, and the reference groups GELU's cube as (v * v) * v, which is the same number as v * (v * v).
-/
import proofs.«103591_j30734785970328_1_alg».proof.Proof.Gen.ReferenceIdeal.Read
import proofs.«103591_j30734785970328_1_alg».proof.Proof.Spec
import Idealize.ShloMosaic.PureOps.Ideal.Laws
import Idealize.ShloMosaic.Lib.ValueIdx

noncomputable section

namespace Cert.ReferenceIdeal.FfnRef

open Idealize.ShloMosaic Idealize.ShloMosaic.ValueIdx Cert.ReferenceIdeal Cert.ReferenceIdeal.Read

/-- The reference's pre-activation stage, read at expert e, token t, hidden unit h, is the specification's: the regrouped
    token array at (e, t, k) is the flat one at row e * 2048 + t, since ((e * 2048 + t) * 2048 + k) / 2048 = e * 2048 + t
    and the remainder is k; the bias, broadcast along the token axis, is read at (e, h). -/
private theorem v4_is_pre (x0 : (⟨S16384x2048, .f32⟩ : BufTy).Contents (Elt Ideal))
    (x1 : (⟨S8x8192x2048, .f32⟩ : BufTy).Contents (Elt Ideal)) (x2 : (⟨S8x8192, .f32⟩ : BufTy).Contents (Elt Ideal))
    (e : Fin 8) (t : Fin 2048) (h : Fin 8192) :
    val_main_v4 (F := Ideal) x0 x1 x2 (ix3 e t h) = Cert.Ffn.pre x0 x1 x2 e t h := by
  have e0 : ∀ k : Fin 2048, idx_main_v0 (lidx_main_v1 (ix3 e t h) k) = ix2 (Cert.Ffn.tokRow e t) k := fun k =>
    funext fun a => Fin.ext (by
      have he : e.val < 8 := e.isLt
      have ht : t.val < 2048 := t.isLt
      have hk : k.val < 2048 := k.isLt
      match a with
      | ⟨0, _⟩ => show ((e.val * 2048 + t.val) * 2048 + k.val) / 2048 = e.val * 2048 + t.val; omega
      | ⟨1, _⟩ => show ((e.val * 2048 + t.val) * 2048 + k.val) % 2048 = k.val; omega)
  have e1 : ∀ k : Fin 2048, ridx_main_v1 (ix3 e t h) k = ix3 e h k := fun k =>
    funext fun a => Fin.ext (by match a with | ⟨0, _⟩ => rfl | ⟨1, _⟩ => rfl | ⟨2, _⟩ => rfl)
  have e2 : idx_main_v2 (idx_main_v3 (ix3 e t h)) = ix2 e h :=
    funext fun a => Fin.ext (by match a with | ⟨0, _⟩ => rfl | ⟨1, _⟩ => rfl)
  rw [val_main_v4_apply, val_main_v1_apply, val_main_v3_apply, val_main_v2_apply, e2]
  unfold Cert.Ffn.pre
  simp only [val_main_v0_apply, e0, e1, Ideal.addf_def]

/-- The reference's activation stage at (e, t, h) is GELU of the pre-activation: entry by entry it is
    v * (1/2 * (1 + tanh (s * (v + c * ((v * v) * v))))) with v the pre-activation, and (v * v) * v = v * (v * v). -/
private theorem v17_is_act (x0 : (⟨S16384x2048, .f32⟩ : BufTy).Contents (Elt Ideal))
    (x1 : (⟨S8x8192x2048, .f32⟩ : BufTy).Contents (Elt Ideal)) (x2 : (⟨S8x8192, .f32⟩ : BufTy).Contents (Elt Ideal))
    (e : Fin 8) (t : Fin 2048) (h : Fin 8192) :
    val_main_v17 (F := Ideal) x0 x1 x2 (ix3 e t h) = Cert.Ffn.act x0 x1 x2 e t h := by
  rw [val_main_v17_apply, val_main_v16_apply, val_main_v15_apply, val_main_cst_2_apply, val_main_v14_apply,
    val_main_v13_apply, val_main_cst_1_apply, val_main_v12_apply, val_main_v11_apply, val_main_v10_apply,
    val_main_cst_0_apply, val_main_v9_apply, val_main_v8_apply, val_main_v7_apply, val_main_cst_apply,
    val_main_v6_apply, val_main_v5_apply]
  simp only [v4_is_pre, Ideal.mulf_def, Ideal.addf_def, Ideal.hostUnary_tanh_def, Ideal.ofBits_def]
  unfold Cert.Ffn.act
  exact Cert.Ffn.gelu_cube_left _

/-- The reference's last stage is the specification's result array, as one function of the five float arguments. -/
theorem reference_is_result (x0 : (⟨S16384x2048, .f32⟩ : BufTy).Contents (Elt Ideal))
    (x1 : (⟨S8x8192x2048, .f32⟩ : BufTy).Contents (Elt Ideal)) (x2 : (⟨S8x8192, .f32⟩ : BufTy).Contents (Elt Ideal))
    (x3 : (⟨S8x2048x8192, .f32⟩ : BufTy).Contents (Elt Ideal)) (x4 : (⟨S8x2048, .f32⟩ : BufTy).Contents (Elt Ideal)) :
    val_main_v22 (F := Ideal) x0 x1 x2 x3 x4 = Cert.Ffn.result x0 x1 x2 x3 x4 := by
  funext i
  obtain ⟨r, d, rfl⟩ : ∃ (r : Fin 16384) (d : Fin 2048), i = ix2 r d := ⟨i 0, i 1, eq_ix2 i⟩
  have hr : r.val < 16384 := r.isLt
  have hd : d.val < 2048 := d.isLt
  -- Entry (r, d) of the flat result is entry (r / 2048, r % 2048, d) of the grouped one: with n = r * 2048 + d and
  -- d < 2048, n / 2048 = r and n % 2048 = d, so n / 4194304 = r / 2048 and n / 2048 % 2048 = r % 2048.
  have e22 : idx_main_v22 (ix2 r d)
      = ix3 (⟨r.val / 2048, by omega⟩ : Fin 8) (⟨r.val % 2048, Nat.mod_lt _ (by decide)⟩ : Fin 2048) d :=
    funext fun a => Fin.ext (by
      match a with
      | ⟨0, _⟩ => show (r.val * 2048 + d.val) / 4194304 = r.val / 2048; omega
      | ⟨1, _⟩ => show (r.val * 2048 + d.val) / 2048 % 2048 = r.val % 2048; omega
      | ⟨2, _⟩ => show (r.val * 2048 + d.val) % 2048 = d.val; omega)
  have el : ∀ (e : Fin 8) (t : Fin 2048) (k : Fin 8192), lidx_main_v18 (ix3 e t d) k = ix3 e t k := fun e t k =>
    funext fun a => Fin.ext (by match a with | ⟨0, _⟩ => rfl | ⟨1, _⟩ => rfl | ⟨2, _⟩ => rfl)
  have er : ∀ (e : Fin 8) (t : Fin 2048) (k : Fin 8192), ridx_main_v18 (ix3 e t d) k = ix3 e d k := fun e t k =>
    funext fun a => Fin.ext (by match a with | ⟨0, _⟩ => rfl | ⟨1, _⟩ => rfl | ⟨2, _⟩ => rfl)
  have eb : ∀ (e : Fin 8) (t : Fin 2048), idx_main_v19 (idx_main_v20 (ix3 e t d)) = ix2 e d := fun e t =>
    funext fun a => Fin.ext (by match a with | ⟨0, _⟩ => rfl | ⟨1, _⟩ => rfl)
  rw [val_main_v22_apply, e22, val_main_v21_apply, val_main_v18_apply, val_main_v20_apply, val_main_v19_apply, eb]
  simp only [el, er, v17_is_act, Ideal.addf_def]
  rfl

end Cert.ReferenceIdeal.FfnRef

end
-- ==== Proof.lean ====
/-
  A grouped expert feed-forward layer: eight experts, 2048 tokens each, model width 2048, hidden width 8192. For expert e
  and token t the layer computes  gelu (x W1ᵀ + b1) W2ᵀ + b2  with that expert's weights, GELU in its tanh form.

  The kernel walks a grid of 8 experts by 4 token tiles by 16 hidden blocks. At each step it forms a 512-token tile's
  hidden activations for one 512-unit block, multiplies them into the matching block of the second weights, and adds the
  product to a running total that starts at zero with the tile's first block; after the sixteenth block it adds the second
  bias and writes the tile out. The reference takes both products whole. Over the extended reals a change of float format
  is the identity and a matrix product is a plain sum of products, so the only difference between the two is that one sum
  over 8192 hidden units is taken sixteen blocks of 512 at a time into a total started from zero — and addition of
  extended reals is commutative and associative, infinities included, so the two agree on every input. The precondition
  is never opened.

  Spec states the mathematics; Pieces, Payloads, Blocks, Accum and Final read the kernel's run as that function of the
  arguments; RefSide does the same for the reference. The three frames are the generated ones (the reference's is its run
  with the result dropped), and the idealization rewrote nothing, so its claim is trivial.
-/
import proofs.«103591_j30734785970328_1_alg».proof.Defs
import proofs.«103591_j30734785970328_1_alg».proof.Proof.Gen.Kernel
import proofs.«103591_j30734785970328_1_alg».proof.Proof.Gen.Kernel.Frame
import proofs.«103591_j30734785970328_1_alg».proof.Proof.Gen.KernelIdeal
import proofs.«103591_j30734785970328_1_alg».proof.Proof.Gen.KernelIdeal.Frame
import proofs.«103591_j30734785970328_1_alg».proof.Proof.Gen.ReferenceIdeal
import proofs.«103591_j30734785970328_1_alg».proof.Proof.Gen.ReferenceIdeal.Run
import proofs.«103591_j30734785970328_1_alg».proof.Proof.Gen.ReferenceIdeal.Read
import proofs.«103591_j30734785970328_1_alg».proof.Proof.Gen.Pre_finite_inputs
import proofs.«103591_j30734785970328_1_alg».proof.Proof.Final
import proofs.«103591_j30734785970328_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is straight-line host code: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's result array of the same arguments. -/
theorem algebraic : Cert.algebraic_KernelIdeal_ReferenceIdeal := by
  intro m ρ m' ρ' _ hagree
  refine ⟨fun c => Cert.Ffn.result (Cert.KernelIdeal.FfnAccum.argX m c) (Cert.KernelIdeal.FfnAccum.argW1 m c)
    (Cert.KernelIdeal.FfnAccum.argB1 m c) (Cert.KernelIdeal.FfnAccum.argW2 m c) (Cert.KernelIdeal.FfnAccum.argB2 m c),
    Cert.KernelIdeal.FfnFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.FfnRef.reference_is_result,
    (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
